-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x8x64 : Shape := ⟨4, ![2, 4096, 8, 64]⟩
abbrev S2x4096x16x8x64 : Shape := ⟨5, ![2, 4096, 16, 8, 64]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel
  bcast_S_S2x4096x16x8x64 : S_.BroadcastsInDim S2x4096x16x8x64 (![] : Fin 0 → Fin S2x4096x16x8x64.rank)
  reducesTo_S2x4096x16x8x64_S_d0_1_2_3_4 : S2x4096x16x8x64.ReducesTo [0, 1, 2, 3, 4] S_

variable [Facts]

def fn_part1 {F : FTy → Type} [FloatOps F] (main_v13 : IVec S_ 1) (main_v16 : IVec S2x4096x16x8x64 1) : IVec S_ 1 :=
  let main_c_5 : IVec S_ 1 := constantI S_ 1 1#1
  let main_v17 : IVec S_ 1 := (fun x v => Host.reduce IntOp.andi x v reducesTo_S2x4096x16x8x64_S_d0_1_2_3_4 h_S_) main_v16 main_c_5
  let main_v18 : IVec S_ 1 := andi main_v13 main_v17
  main_v18

def fn {F : FTy → Type} [FloatOps F] (main_arg0 : FVec F S2x4096x8x64 .f32) (main_arg1 : FVec F S2x4096x16x8x64 .f32) (main_arg2 : FVec F S2x4096x16x8x64 .f32) (main_arg3 : FVec F S2x4096x16x8x64 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x16x8x64 .f32 := Host.absf main_arg1
  let main_cst_0 : FVec F S_ .f32 := constant S_ .f32 0x7F800000#32
  let main_v5 : FVec F S2x4096x16x8x64 .f32 := broadcastInDim S2x4096x16x8x64 ![] bcast_S_S2x4096x16x8x64 main_cst_0
  let main_v6 : IVec S2x4096x16x8x64 1 := cmpf .olt main_v4 main_v5
  let main_c_1 : IVec S_ 1 := constantI S_ 1 1#1
  let main_v7 : IVec S_ 1 := (fun x v => Host.reduce IntOp.andi x v reducesTo_S2x4096x16x8x64_S_d0_1_2_3_4 h_S_) main_v6 main_c_1
  let main_v8 : IVec S_ 1 := andi main_v3 main_v7
  let main_v9 : FVec F S2x4096x16x8x64 .f32 := Host.absf main_arg2
  let main_cst_2 : FVec F S_ .f32 := constant S_ .f32 0x7F800000#32
  let main_v10 : FVec F S2x4096x16x8x64 .f32 := broadcastInDim S2x4096x16x8x64 ![] bcast_S_S2x4096x16x8x64 main_cst_2
  let main_v11 : IVec S2x4096x16x8x64 1 := cmpf .olt main_v9 main_v10
  let main_c_3 : IVec S_ 1 := constantI S_ 1 1#1
  let main_v12 : IVec S_ 1 := (fun x v => Host.reduce IntOp.andi x v reducesTo_S2x4096x16x8x64_S_d0_1_2_3_4 h_S_) main_v11 main_c_3
  let main_v13 : IVec S_ 1 := andi main_v8 main_v12
  let main_v14 : FVec F S2x4096x16x8x64 .f32 := Host.absf main_arg3
  let main_cst_4 : FVec F S_ .f32 := constant S_ .f32 0x7F800000#32
  let main_v15 : FVec F S2x4096x16x8x64 .f32 := broadcastInDim S2x4096x16x8x64 ![] bcast_S_S2x4096x16x8x64 main_cst_4
  let main_v16 : IVec S2x4096x16x8x64 1 := cmpf .olt main_v14 main_v15
  fn_part1 (F := F) main_v13 main_v16
-- ==== Kernel.lean ====
abbrev S2x4096x8x64 : Shape := ⟨4, ![2, 4096, 8, 64]⟩
abbrev S2x4096x16x8x64 : Shape := ⟨5, ![2, 4096, 16, 8, 64]⟩
abbrev S1x128x8x64 : Shape := ⟨4, ![1, 128, 8, 64]⟩
abbrev S1x128x16x8x64 : Shape := ⟨5, ![1, 128, 16, 8, 64]⟩
abbrev S128x8x64 : Shape := ⟨3, ![128, 8, 64]⟩
abbrev S128x1x8x64 : Shape := ⟨4, ![128, 1, 8, 64]⟩
abbrev S128x16x8x64 : Shape := ⟨4, ![128, 16, 8, 64]⟩

abbrev nBuf : Space → Nat
  | .hbm => 5
  | .vmem => 10
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x16x8x64, .f32⟩
  | .hbm, ⟨2, _⟩ => ⟨S2x4096x16x8x64, .f32⟩
  | .hbm, ⟨3, _⟩ => ⟨S2x4096x16x8x64, .f32⟩
  | .hbm, ⟨4, _⟩ => ⟨S2x4096x8x64, .f32⟩
  | .local _ .vmem, ⟨0, _⟩ => ⟨S1x128x8x64, .f32⟩
  | .local _ .vmem, ⟨1, _⟩ => ⟨S1x128x8x64, .f32⟩
  | .local _ .vmem, ⟨2, _⟩ => ⟨S1x128x16x8x64, .f32⟩
  | .local _ .vmem, ⟨3, _⟩ => ⟨S1x128x16x8x64, .f32⟩
  | .local _ .vmem, ⟨4, _⟩ => ⟨S1x128x16x8x64, .f32⟩
  | .local _ .vmem, ⟨5, _⟩ => ⟨S1x128x16x8x64, .f32⟩
  | .local _ .vmem, ⟨6, _⟩ => ⟨S1x128x16x8x64, .f32⟩
  | .local _ .vmem, ⟨7, _⟩ => ⟨S1x128x16x8x64, .f32⟩
  | .local _ .vmem, ⟨8, _⟩ => ⟨S1x128x8x64, .f32⟩
  | .local _ .vmem, ⟨9, _⟩ => ⟨S1x128x8x64, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x16x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x128x8x64_S1x128x8x64_0_0_0_0 : ∀ a, (![0, 0, 0, 0] : Fin 4 → Nat) a + S1x128x8x64.size a ≤ S1x128x8x64.size a
  h_S1x128x8x64 : 0 < S1x128x8x64.numel
  shapeCasts_S1x128x8x64_S128x8x64 : S1x128x8x64.ShapeCasts S128x8x64
  shapeCasts_S128x8x64_S128x1x8x64 : S128x8x64.ShapeCasts S128x1x8x64
  inb_S1x128x16x8x64_S1x128x16x8x64_0_0_0_0_0 : ∀ a, (![0, 0, 0, 0, 0] : Fin 5 → Nat) a + S1x128x16x8x64.size a ≤ S1x128x16x8x64.size a
  h_S1x128x16x8x64 : 0 < S1x128x16x8x64.numel
  shapeCasts_S1x128x16x8x64_S128x16x8x64 : S1x128x16x8x64.ShapeCasts S128x16x8x64
  broadcasts_S128x1x8x64_S128x16x8x64 : S128x1x8x64.Broadcasts S128x16x8x64
  reduces_S128x16x8x64_S128x8x64 : S128x16x8x64.Reduces [1] S128x8x64
  shapeCasts_S128x8x64_S1x128x8x64 : S128x8x64.ShapeCasts S1x128x8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8x64.size a ≤ S2x4096x8x64.size a
  hwx0_0 : ∀ i : grid0.Coords, EltTy.bits .f32 = 32 ∨ (Rect.block (s := S2x4096x8x64) S1x128x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x8x64.size a ≤ S2x4096x16x8x64.size a
  hwx0_1 : ∀ i : grid0.Coords, EltTy.bits .f32 = 32 ∨ (Rect.block (s := S2x4096x16x8x64) S1x128x16x8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x16x8x64.size a ≤ S2x4096x16x8x64.size a
  hwx0_2 : ∀ i : grid0.Coords, EltTy.bits .f32 = 32 ∨ (Rect.block (s := S2x4096x16x8x64) S1x128x16x8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16x8x64.size a ≤ S2x4096x16x8x64.size a
  hwx0_3 : ∀ i : grid0.Coords, EltTy.bits .f32 = 32 ∨ (Rect.block (s := S2x4096x16x8x64) S1x128x16x8x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x8x64.size a ≤ S2x4096x8x64.size a
  hwx0_4 : ∀ i : grid0.Coords, EltTy.bits .f32 = 32 ∨ (Rect.block (s := S2x4096x8x64) S1x128x8x64.size (cc0_transform_4 i) (hinb0_4 i)).WholeWords (EltTy.packing .f32)

variable [Facts₀]

abbrev win0_0 : Pipeline.Window sig grid0 :=
  Pipeline.Window.ofSpec (Memref.whole main_arg0) S1x128x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x16x8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x16x8x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x16x8x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x8x64 : Shape := ⟨4, ![2, 4096, 8, 64]⟩
abbrev S2x4096x16x8x64 : Shape := ⟨5, ![2, 4096, 16, 8, 64]⟩
abbrev S2x4096x1x8x64 : Shape := ⟨5, ![2, 4096, 1, 8, 64]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x16x8x64, .f32⟩
  | .hbm, ⟨2, _⟩ => ⟨S2x4096x16x8x64, .f32⟩
  | .hbm, ⟨3, _⟩ => ⟨S2x4096x16x8x64, .f32⟩
  | .hbm, ⟨4, _⟩ => ⟨S2x4096x1x8x64, .f32⟩
  | .hbm, ⟨5, _⟩ => ⟨S2x4096x16x8x64, .f32⟩
  | .hbm, ⟨6, _⟩ => ⟨S2x4096x16x8x64, .f32⟩
  | .hbm, ⟨7, _⟩ => ⟨S2x4096x16x8x64, .f32⟩
  | .hbm, ⟨8, _⟩ => ⟨S2x4096x16x8x64, .f32⟩
  | .hbm, ⟨9, _⟩ => ⟨S2x4096x16x8x64, .f32⟩
  | .hbm, ⟨10, _⟩ => ⟨S_, .f32⟩
  | .hbm, ⟨11, _⟩ => ⟨S2x4096x16x8x64, .f32⟩
  | .hbm, ⟨12, _⟩ => ⟨S2x4096x16x8x64, .f32⟩
  | .hbm, ⟨13, _⟩ => ⟨S_, .f32⟩
  | .hbm, ⟨14, _⟩ => ⟨S2x4096x8x64, .f32⟩
  | .hbm, ⟨15, _⟩ => ⟨S_, .f32⟩
  | .hbm, ⟨16, _⟩ => ⟨S2x4096x8x64, .f32⟩
  | .hbm, ⟨17, _⟩ => ⟨S2x4096x8x64, .f32⟩
  | .hbm, ⟨18, _⟩ => ⟨S2x4096x1x8x64, .f32⟩
  | .hbm, ⟨19, _⟩ => ⟨S2x4096x16x8x64, .f32⟩
  | .hbm, ⟨20, _⟩ => ⟨S2x4096x16x8x64, .f32⟩
  | .hbm, ⟨21, _⟩ => ⟨S2x4096x16x8x64, .f32⟩
  | .hbm, ⟨22, _⟩ => ⟨S_, .f32⟩
  | .hbm, ⟨23, _⟩ => ⟨S2x4096x8x64, .f32⟩
  | .hbm, ⟨24, _⟩ => ⟨S2x4096x1x8x64, .f32⟩
  | .hbm, ⟨25, _⟩ => ⟨S2x4096x16x8x64, .f32⟩
  | .hbm, ⟨26, _⟩ => ⟨S2x4096x16x8x64, .f32⟩
  | .hbm, ⟨27, _⟩ => ⟨S2x4096x16x8x64, .f32⟩
  | .hbm, ⟨28, _⟩ => ⟨S_, .f32⟩
  | .hbm, ⟨29, _⟩ => ⟨S2x4096x8x64, .f32⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S2x4096x8x64_S2x4096x1x8x64_0_1_3_4 : S2x4096x8x64.BroadcastsInDim S2x4096x1x8x64 (![0, 1, 3, 4] : Fin 4 → Fin S2x4096x1x8x64.rank)
  bcast_S2x4096x1x8x64_S2x4096x16x8x64_0_1_2_3_4 : S2x4096x1x8x64.BroadcastsInDim S2x4096x16x8x64 (![0, 1, 2, 3, 4] : Fin 5 → Fin S2x4096x16x8x64.rank)
  bcast_S_S2x4096x16x8x64 : S_.BroadcastsInDim S2x4096x16x8x64 (![] : Fin 0 → Fin S2x4096x16x8x64.rank)
  reducesTo_S2x4096x16x8x64_S2x4096x8x64_d2 : S2x4096x16x8x64.ReducesTo [2] S2x4096x8x64
  h_S_ : 0 < S_.numel
  bcast_S_S2x4096x8x64 : S_.BroadcastsInDim S2x4096x8x64 (![] : Fin 0 → Fin S2x4096x8x64.rank)

variable [Facts₀]

class Facts : Prop extends Facts₀ where

variable [Facts]
-- ==== Proof.NeighbourSoftmax.lean ====
/-
  The function both programs compute, index by index on the extended reals.

  At a query index (b, n, h, d), neighbour j of the sixteen has the score
      s j = (q · k_j + q · g_j) · 2⁻³,
  every factor taken at the same (b, n, h, d) and k, g at neighbour j. The weights are the
  softmax of the scores over j with the maximum subtracted first,
      e j = exp (s j − top s),   w j = e j / Σ_j' e j',
  and the result is Σ_j w j · v_j. The maximum `top s` is the fold of `max` from −∞ over the
  sixteen scores. One program takes `max` with −∞ once more after the fold; since the fold already
  starts at −∞ it is at least −∞, and that extra step changes nothing (`max_negInf_top`). No other
  law is used, and none that needs the inputs finite.
-/
import Idealize.ShloMosaic.PureOps.Ideal
import Idealize.ShloMosaic.PureOps.Ideal.Laws

noncomputable section

namespace Cert.GeoAttention

open Idealize.ShloMosaic

/-- Queries and results: [2, 4096, 8, 64] = (batch, token, head, channel). -/
abbrev SQ : Shape := ⟨4, ![2, 4096, 8, 64]⟩
/-- Keys, values and geometric features: [2, 4096, 16, 8, 64], the sixteen neighbours on axis 2. -/
abbrev SN : Shape := ⟨5, ![2, 4096, 16, 8, 64]⟩

/-- Neighbour `j` of the query index `(b, n, h, d)` is the index `(b, n, j, h, d)`. -/
abbrev nbr (i : SQ.Idx) (j : Fin 16) : SN.Idx := fun a => match a with
  | ⟨0, _⟩ => ⟨(i 0).val, (i 0).isLt⟩
  | ⟨1, _⟩ => ⟨(i 1).val, (i 1).isLt⟩
  | ⟨2, _⟩ => ⟨j.val, j.isLt⟩
  | ⟨3, _⟩ => ⟨(i 2).val, (i 2).isLt⟩
  | ⟨4, _⟩ => ⟨(i 3).val, (i 3).isLt⟩

/-- −∞, by the word both programs start their maximum from. -/
abbrev negInf : EReal := Ideal.ofBits .f32 0xFF800000#32

/-- The scale 2⁻³ = 64^(−1/2), by the word both programs multiply the score with. -/
abbrev scale : EReal := Ideal.ofBits .f32 0x3E000000#32

/-- The largest of sixteen scores, folded from −∞. -/
def top (s : Fin 16 → EReal) : EReal := (Finset.univ : Finset (Fin 16)).fold max negInf s

/-- Taking `max` with −∞ after the fold is the identity: the fold starts at −∞, so it is at least −∞. -/
theorem max_negInf_top (s : Fin 16 → EReal) : max negInf (top s) = top s :=
  max_eq_right ((Finset.le_fold_max _).2 (Or.inl le_rfl))

/-- Softmax of the scores `s` (maximum subtracted) paired with the values `w`: Σ_j (e j / Σ e) · w j. -/
def softmaxDot (s w : Fin 16 → EReal) : EReal :=
  ∑ j : Fin 16, Ideal.div (Ideal.exp (s j - top s)) (∑ j' : Fin 16, Ideal.exp (s j' - top s)) * w j

/-- The score of neighbour `j` at the query index `i`. -/
def score (q : SQ.Idx → EReal) (k g : SN.Idx → EReal) (i : SQ.Idx) (j : Fin 16) : EReal :=
  (q i * k (nbr i j) + q i * g (nbr i j)) * scale

/-- The result array as one function of the four argument arrays: queries `q`, keys `k`, values `v`,
    geometric features `g`. -/
def G (q : SQ.Idx → EReal) (k v g : SN.Idx → EReal) : SQ.Idx → EReal :=
  fun i => softmaxDot (score q k g i) (fun j => v (nbr i j))

end Cert.GeoAttention

end
-- ==== Proof.ReferenceStages.lean ====
/-
  The reference program's result, stage by stage, is the function `G` of its four arguments.

  Read at a neighbour index (b, n, j, h, d) the product stage is the score of neighbour j; the
  maximum stage at (b, n, h, d) is the fold of `max` from −∞ over the sixteen scores, followed by
  one more `max` with −∞ that changes nothing; the exponential stage is exp (score − maximum); the
  first sum is the softmax denominator, the initial value 0 added in front; the quotient times the
  value, summed over the neighbours from 0, is `G`.
-/
import proofs.«164662_j37855841747280_1_alg».proof.Proof.Gen.ReferenceIdeal.Read
import proofs.«164662_j37855841747280_1_alg».proof.Proof.NeighbourSoftmax
import Idealize.ShloMosaic.PureOps.Reduce
import Idealize.ShloMosaic.PureOps.Ideal.Laws

noncomputable section

namespace Cert.GeoAttention.Reference

open Cert.ReferenceIdeal Cert.ReferenceIdeal.Gen Cert.ReferenceIdeal.Read Idealize.ShloMosaic Cert.GeoAttention

variable (q : (⟨S2x4096x8x64, .f32⟩ : BufTy).Contents (Elt Ideal))
variable (k v g : (⟨S2x4096x16x8x64, .f32⟩ : BufTy).Contents (Elt Ideal))

/-- The neighbour axis is axis 2 of the five. -/
theorem neighbourAxis : Shape.Reduces S2x4096x16x8x64 [2] S2x4096x8x64 := by decide

/-- Putting neighbour `j` back into a reduced index gives `(b, n, j, h, d)`. -/
theorem lift_eq (i : S2x4096x8x64.Idx) (j : Fin 16) : neighbourAxis.lift i j = nbr i j :=
  funext fun a => Fin.ext (by match a with | ⟨0, _⟩ => rfl | ⟨1, _⟩ => rfl | ⟨2, _⟩ => rfl | ⟨3, _⟩ => rfl | ⟨4, _⟩ => rfl)

/-- The scaled product stage at neighbour `j` of `i` is the score: the query is broadcast along the neighbour axis,
    so both products read it at `i`. -/
theorem score_eq (i : S2x4096x8x64.Idx) (j : Fin 16) :
    val_main_v7 (F := Ideal) q k g (nbr i j) = score q k g i j := by
  have e1 : idx_main_v0 (idx_main_v1 (nbr i j)) = i := funext fun a => Fin.ext (by match a with | ⟨0, _⟩ => rfl | ⟨1, _⟩ => rfl | ⟨2, _⟩ => rfl | ⟨3, _⟩ => rfl)
  have e3 : idx_main_v0 (idx_main_v3 (nbr i j)) = i := funext fun a => Fin.ext (by match a with | ⟨0, _⟩ => rfl | ⟨1, _⟩ => rfl | ⟨2, _⟩ => rfl | ⟨3, _⟩ => rfl)
  rw [val_main_v7_apply, val_main_v5_apply, val_main_v2_apply, val_main_v4_apply, val_main_v1_apply, val_main_v3_apply,
    val_main_v0_apply, val_main_v6_apply, val_main_cst_apply, e1]
  try rw [e3]
  rfl

/-- The maximum stage at `i`: the fold of `max` from −∞ over the sixteen scores; the later `max` with −∞ is absorbed. -/
theorem top_eq (i : S2x4096x8x64.Idx) : val_main_v10 (F := Ideal) q k g i = top (score q k g i) := by
  rw [val_main_v10_apply, val_main_v9_apply, val_main_cst_1_apply]
  unfold val_main_v8
  rw [Host.reduce_eq_fold_single FloatOps.maximumf _ _ reducesTo_S2x4096x16x8x64_S2x4096x8x64_d2 neighbourAxis h_S_ i]
  have hf : (val_main_v7 (F := Ideal) q k g ∘ neighbourAxis.lift i) = score q k g i := funext fun (j : Fin 16) =>
    (congrArg (val_main_v7 (F := Ideal) q k g) (lift_eq i j)).trans (score_eq q k g i j)
  rw [hf]
  exact max_negInf_top _

/-- The exponential stage at neighbour `j` of `i`: exp (score − maximum), the maximum broadcast back along the neighbours. -/
theorem exp_eq (i : S2x4096x8x64.Idx) (j : Fin 16) :
    val_main_v14 (F := Ideal) q k g (nbr i j) = Ideal.exp (score q k g i j - top (score q k g i)) := by
  have e : idx_main_v11 (idx_main_v12 (nbr i j)) = i := funext fun a => Fin.ext (by match a with | ⟨0, _⟩ => rfl | ⟨1, _⟩ => rfl | ⟨2, _⟩ => rfl | ⟨3, _⟩ => rfl)
  rw [val_main_v14_apply, val_main_v13_apply, val_main_v12_apply, val_main_v11_apply, e, top_eq, score_eq]
  rfl

/-- The first sum at `i` is the softmax denominator; its initial value is the zero word. -/
theorem denom_eq (i : S2x4096x8x64.Idx) :
    val_main_v15 (F := Ideal) q k g i = ∑ j : Fin 16, Ideal.exp (score q k g i j - top (score q k g i)) := by
  rw [val_main_v15_apply, val_main_cst_2_apply,
    show FloatOps.ofBits (F := Ideal) .f32 0x00000000#32 = 0 from Ideal.ofBits_zero_f32, zero_add]
  refine Finset.sum_congr rfl fun j _ => ?_
  rw [show idx_main_v15 i j = nbr i j from funext fun a => Fin.ext (by match a with | ⟨0, _⟩ => rfl | ⟨1, _⟩ => rfl | ⟨2, _⟩ => rfl | ⟨3, _⟩ => rfl | ⟨4, _⟩ => rfl)]
  exact exp_eq q k g i j

/-- The reference's result is `G` of its arguments (its third argument is the values, its fourth the geometric features). -/
theorem result_eq : val_main_v20 (F := Ideal) q k v g = G q k v g := by
  funext i
  rw [val_main_v20_apply, val_main_cst_3_apply,
    show FloatOps.ofBits (F := Ideal) .f32 0x00000000#32 = 0 from Ideal.ofBits_zero_f32, zero_add]
  show _ = softmaxDot (score q k g i) (fun j => v (nbr i j))
  unfold softmaxDot
  refine Finset.sum_congr rfl fun j _ => ?_
  have e : idx_main_v16 (idx_main_v17 (nbr i j)) = i := funext fun a => Fin.ext (by match a with | ⟨0, _⟩ => rfl | ⟨1, _⟩ => rfl | ⟨2, _⟩ => rfl | ⟨3, _⟩ => rfl)
  rw [show idx_main_v20 i j = nbr i j from funext fun a => Fin.ext (by match a with | ⟨0, _⟩ => rfl | ⟨1, _⟩ => rfl | ⟨2, _⟩ => rfl | ⟨3, _⟩ => rfl | ⟨4, _⟩ => rfl),
    val_main_v19_apply, val_main_v18_apply, val_main_v17_apply, val_main_v16_apply, e, denom_eq, exp_eq]
  rfl

end Cert.GeoAttention.Reference

end
-- ==== Proof.KernelBlock.lean ====
/-
  What the kernel's body leaves in one output block, read at an index of the block.

  A block holds 128 tokens of one batch entry. The body drops the leading unit axis of each loaded
  block, repeats the query along a new neighbour axis of extent sixteen, forms the scaled scores
  (q · k + q · g) · 2⁻³, takes their maximum and the sum of exp (score − maximum) over the neighbour
  axis (each put back on a unit axis and repeated sixteen times), divides, multiplies by the values
  and sums over the neighbours. Read at (0, n, h, d) of the block this is the softmax sum of the
  sixteen scores at (0, n, j, h, d) against the sixteen values there: every layout step only moves an
  entry between indices with the same (n, h, d), and each reduction runs over j alone.
-/
import proofs.«164662_j37855841747280_1_alg».proof.Proof.Gen.KernelIdeal.Value
import proofs.«164662_j37855841747280_1_alg».proof.Proof.NeighbourSoftmax
import Idealize.ShloMosaic.Lib.Pipeline.Value
import Idealize.ShloMosaic.Lib.ValueIdx
import Idealize.ShloMosaic.PureOps.Ideal.Laws

noncomputable section

namespace Cert.GeoAttention.Block

open Cert.KernelIdeal Cert.KernelIdeal.Gen Idealize.ShloMosaic Idealize.ShloMosaic.ValueIdx Cert.GeoAttention

/-! ## Indices -/

/-- `(n, j, h, d)` without its neighbour coordinate: `(n, h, d)`. -/
abbrev dropNbr (i : S128x16x8x64.Idx) : S128x8x64.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- `(n, h, d)` with the neighbour coordinate `j` put in: `(n, j, h, d)`. -/
abbrev withNbr (r : S128x8x64.Idx) (j : Fin 16) : S128x16x8x64.Idx := fun a => match a with
  | ⟨0, _⟩ => ⟨(r 0).val, (r 0).isLt⟩
  | ⟨1, _⟩ => ⟨j.val, j.isLt⟩
  | ⟨2, _⟩ => ⟨(r 1).val, (r 1).isLt⟩
  | ⟨3, _⟩ => ⟨(r 2).val, (r 2).isLt⟩

/-- `(n, h, d)` under the block's leading unit axis: `(0, n, h, d)`. -/
abbrev lead4 (r : S128x8x64.Idx) : S1x128x8x64.Idx := fun a => match a with
  | ⟨0, _⟩ => ⟨0, Nat.one_pos⟩
  | ⟨1, _⟩ => ⟨(r 0).val, (r 0).isLt⟩
  | ⟨2, _⟩ => ⟨(r 1).val, (r 1).isLt⟩
  | ⟨3, _⟩ => ⟨(r 2).val, (r 2).isLt⟩

/-- `(n, j, h, d)` under the block's leading unit axis: `(0, n, j, h, d)`. -/
abbrev lead5 (i : S128x16x8x64.Idx) : S1x128x16x8x64.Idx := fun a => match a with
  | ⟨0, _⟩ => ⟨0, Nat.one_pos⟩
  | ⟨1, _⟩ => ⟨(i 0).val, (i 0).isLt⟩
  | ⟨2, _⟩ => ⟨(i 1).val, (i 1).isLt⟩
  | ⟨3, _⟩ => ⟨(i 2).val, (i 2).isLt⟩
  | ⟨4, _⟩ => ⟨(i 3).val, (i 3).isLt⟩

theorem dropNbr_withNbr (r : S128x8x64.Idx) (j : Fin 16) : dropNbr (withNbr r j) = r :=
  funext fun a => Fin.ext (by match a with | ⟨0, _⟩ => rfl | ⟨1, _⟩ => rfl | ⟨2, _⟩ => rfl)

/-- Reinserting the reduced coordinate: the neighbour axis is axis 1 of the four. -/
theorem lift_eq (h : S128x16x8x64.Reduces [1] S128x8x64) (r : S128x8x64.Idx) (j : Fin 16) : h.lift r j = withNbr r j :=
  funext fun a => Fin.ext (by match a with | ⟨0, _⟩ => rfl | ⟨1, _⟩ => rfl | ⟨2, _⟩ => rfl | ⟨3, _⟩ => rfl)

/-! ## The layout steps read at an index -/

section Layout
variable {α : Type}

/-- Dropping the leading unit axis of a [1, 128, 8, 64] block. -/
theorem dropLead4_apply (X : S1x128x8x64.Idx → α) (h : S1x128x8x64.ShapeCasts S128x8x64) (r : S128x8x64.Idx) :
    shapeCast S128x8x64 X h r = X (lead4 r) :=
  shapeCast_apply X h r (lead4 r) (by
    rw [Shape.rowMajor_val_four, Shape.rowMajor_val_three]
    show ((0 * 128 + (r 0).val) * 8 + (r 1).val) * 64 + (r 2).val = ((r 0).val * 8 + (r 1).val) * 64 + (r 2).val
    omega)

/-- Dropping the leading unit axis of a [1, 128, 16, 8, 64] block. -/
theorem dropLead5_apply (X : S1x128x16x8x64.Idx → α) (h : S1x128x16x8x64.ShapeCasts S128x16x8x64) (i : S128x16x8x64.Idx) :
    shapeCast S128x16x8x64 X h i = X (lead5 i) :=
  shapeCast_apply X h i (lead5 i) (by
    rw [Shape.rowMajor_val_five, Shape.rowMajor_val_four]
    show (((0 * 128 + (i 0).val) * 16 + (i 1).val) * 8 + (i 2).val) * 64 + (i 3).val
      = (((i 0).val * 16 + (i 1).val) * 8 + (i 2).val) * 64 + (i 3).val
    omega)

/-- A [128, 8, 64] vector given a unit neighbour axis and repeated along it sixteen times reads, at `(n, j, h, d)`,
    the vector at `(n, h, d)`. -/
theorem alongNbrs_apply (X : S128x8x64.Idx → α) (h1 : S128x8x64.ShapeCasts S128x1x8x64)
    (h2 : S128x1x8x64.Broadcasts S128x16x8x64) (i : S128x16x8x64.Idx) :
    broadcastTo S128x16x8x64 (shapeCast S128x1x8x64 X h1) h2 i = X (dropNbr i) := by
  have hi0 : (i 0).val < 128 := (i 0).isLt
  have hi2 : (i 2).val < 8 := (i 2).isLt
  have hi3 : (i 3).val < 64 := (i 3).isLt
  refine (broadcastTo_apply _ h2 i (fun a => match a with
      | ⟨0, _⟩ => ⟨(i 0).val, (i 0).isLt⟩
      | ⟨1, _⟩ => ⟨0, Nat.one_pos⟩
      | ⟨2, _⟩ => ⟨(i 2).val, (i 2).isLt⟩
      | ⟨3, _⟩ => ⟨(i 3).val, (i 3).isLt⟩ : S128x1x8x64.Idx) (fun a => by
    match a with
    | ⟨0, _⟩ => show (i 0).val = if (128 : Nat) = 1 then 0 else (i 0).val; rw [if_neg (by decide)]
    | ⟨1, _⟩ => show 0 = if (1 : Nat) = 1 then 0 else (i 1).val; rw [if_pos rfl]
    | ⟨2, _⟩ => show (i 2).val = if (8 : Nat) = 1 then 0 else (i 2).val; rw [if_neg (by decide)]
    | ⟨3, _⟩ => show (i 3).val = if (64 : Nat) = 1 then 0 else (i 3).val; rw [if_neg (by decide)])).trans ?_
  refine shapeCast_apply X h1 _ (dropNbr i) (by
    rw [Shape.rowMajor_val_three, Shape.rowMajor_val_four]
    show ((i 0).val * 8 + (i 2).val) * 64 + (i 3).val = (((i 0).val * 1 + 0) * 8 + (i 2).val) * 64 + (i 3).val
    omega)

end Layout

/-! ## Softmax over the neighbour axis of a [128, 16, 8, 64] vector -/

section Softmax
variable (T W : FVec Ideal S128x16x8x64 .f32)
variable (hr : S128x16x8x64.Reduces [1] S128x8x64) (h1 : S128x8x64.ShapeCasts S128x1x8x64)
  (h2 : S128x1x8x64.Broadcasts S128x16x8x64)

/-- The scores at `(n, ·, h, d)`. -/
abbrev row (r : S128x8x64.Idx) : Fin 16 → EReal := fun j => T (withNbr r j)

/-- The maximum over the neighbours at `(n, h, d)` is the fold of `max` from −∞ over that row. -/
theorem nbrMax_apply (r : S128x8x64.Idx) :
    multiReduction .maximumf [1] S128x8x64 T 0xFF800000#32 hr (.inl rfl) rfl r = top (row T r) := by
  have hf : (T ∘ hr.lift r) = row T r := funext fun (j : Fin 16) => congrArg T (lift_eq hr r j)
  refine (Ideal.multiReduction_maximumf_single T 0xFF800000#32 hr (.inl rfl) rfl r).trans ?_
  rw [hf]
  rfl

/-- exp (score − row maximum), the maximum put back on a unit neighbour axis and repeated. -/
abbrev shifted : FVec Ideal S128x16x8x64 .f32 :=
  exp (subf T (broadcastTo S128x16x8x64 (shapeCast S128x1x8x64
    (multiReduction .maximumf [1] S128x8x64 T 0xFF800000#32 hr (.inl rfl) rfl) h1) h2))

theorem shifted_apply (r : S128x8x64.Idx) (j : Fin 16) :
    shifted T hr h1 h2 (withNbr r j) = Ideal.exp (row T r j - top (row T r)) := by
  show Ideal.exp (T (withNbr r j) - broadcastTo S128x16x8x64 (shapeCast S128x1x8x64
    (multiReduction .maximumf [1] S128x8x64 T 0xFF800000#32 hr (.inl rfl) rfl) h1) h2 (withNbr r j)) = _
  rw [alongNbrs_apply, dropNbr_withNbr, nbrMax_apply]

/-- The sum of the shifted exponentials over the neighbours at `(n, h, d)`: the softmax denominator of the row. -/
theorem denom_apply (r : S128x8x64.Idx) :
    multiReduction .add [1] S128x8x64 (shifted T hr h1 h2) 0x00000000#32 hr (.inl rfl) rfl r
      = ∑ j : Fin 16, Ideal.exp (row T r j - top (row T r)) := by
  refine (Ideal.multiReduction_add_single (shifted T hr h1 h2) 0x00000000#32 hr (.inl rfl) rfl r).trans ?_
  show ∑ j : Fin 16, shifted T hr h1 h2 (hr.lift r j) = _
  refine Finset.sum_congr rfl fun (j : Fin 16) _ => ?_
  exact (congrArg (shifted T hr h1 h2) (lift_eq hr r j)).trans (shifted_apply T hr h1 h2 r j)

/-- Quotient by the denominator, times the values `W`, summed over the neighbours. -/
abbrev weighted : FVec Ideal S128x8x64 .f32 :=
  multiReduction .add [1] S128x8x64
    (mulf (divf (shifted T hr h1 h2) (broadcastTo S128x16x8x64 (shapeCast S128x1x8x64
      (multiReduction .add [1] S128x8x64 (shifted T hr h1 h2) 0x00000000#32 hr (.inl rfl) rfl) h1) h2)) W)
    0x00000000#32 hr (.inl rfl) rfl

/-- At `(n, h, d)` it is the softmax of the row of scores there against the row of values there. -/
theorem weighted_apply (r : S128x8x64.Idx) :
    weighted T W hr h1 h2 r = softmaxDot (row T r) (row W r) := by
  refine (Ideal.multiReduction_add_single _ 0x00000000#32 hr (.inl rfl) rfl r).trans ?_
  unfold softmaxDot
  show ∑ j : Fin 16, (mulf (divf (shifted T hr h1 h2) (broadcastTo S128x16x8x64 (shapeCast S128x1x8x64
      (multiReduction .add [1] S128x8x64 (shifted T hr h1 h2) 0x00000000#32 hr (.inl rfl) rfl) h1) h2)) W) (hr.lift r j) = _
  refine Finset.sum_congr rfl fun (j : Fin 16) _ => ?_
  rw [lift_eq hr r j]
  show Ideal.div (shifted T hr h1 h2 (withNbr r j)) (broadcastTo S128x16x8x64 (shapeCast S128x1x8x64
      (multiReduction .add [1] S128x8x64 (shifted T hr h1 h2) 0x00000000#32 hr (.inl rfl) rfl) h1) h2 (withNbr r j))
      * W (withNbr r j) = _
  rw [alongNbrs_apply, dropNbr_withNbr, denom_apply, shifted_apply]

end Softmax

/-! ## The block -/

section Block
variable (P0 : Vec Ideal S1x128x8x64 .f32) (P1 P2 P3 : Vec Ideal S1x128x16x8x64 .f32)
variable (c1 : S1x128x8x64.ShapeCasts S128x8x64) (c2 : S128x8x64.ShapeCasts S128x1x8x64)
  (c3 : S1x128x16x8x64.ShapeCasts S128x16x8x64) (b : S128x1x8x64.Broadcasts S128x16x8x64)

/-- The block's scaled scores: the query block repeated along the neighbours, times the key block plus times
    the geometric block, times 2⁻³. -/
abbrev blockScores : FVec Ideal S128x16x8x64 .f32 :=
  mulf (addf
      (mulf (broadcastTo S128x16x8x64 (shapeCast S128x1x8x64 (shapeCast S128x8x64 P0 c1) c2) b) (shapeCast S128x16x8x64 P1 c3))
      (mulf (broadcastTo S128x16x8x64 (shapeCast S128x1x8x64 (shapeCast S128x8x64 P0 c1) c2) b) (shapeCast S128x16x8x64 P2 c3)))
    (broadcast S128x16x8x64 (Scalar.ofBits .f32 0x3E000000#32))

theorem blockScores_apply (i : S128x16x8x64.Idx) :
    blockScores P0 P1 P2 c1 c2 c3 b i
      = (P0 (lead4 (dropNbr i)) * P1 (lead5 i) + P0 (lead4 (dropNbr i)) * P2 (lead5 i)) * scale := by
  show (broadcastTo S128x16x8x64 (shapeCast S128x1x8x64 (shapeCast S128x8x64 P0 c1) c2) b i * shapeCast S128x16x8x64 P1 c3 i
      + broadcastTo S128x16x8x64 (shapeCast S128x1x8x64 (shapeCast S128x8x64 P0 c1) c2) b i * shapeCast S128x16x8x64 P2 c3 i) * scale = _
  rw [alongNbrs_apply, dropLead4_apply, dropLead5_apply, dropLead5_apply]

/-- Neighbour `j` of the block index `(0, n, h, d)`: `(0, n, j, h, d)`. -/
abbrev nbrIn (y : S1x128x8x64.Idx) (j : Fin 16) : S1x128x16x8x64.Idx := fun a => match a with
  | ⟨0, _⟩ => ⟨(y 0).val, (y 0).isLt⟩
  | ⟨1, _⟩ => ⟨(y 1).val, (y 1).isLt⟩
  | ⟨2, _⟩ => ⟨j.val, j.isLt⟩
  | ⟨3, _⟩ => ⟨(y 2).val, (y 2).isLt⟩
  | ⟨4, _⟩ => ⟨(y 3).val, (y 3).isLt⟩

theorem lead4_under (y : S1x128x8x64.Idx) : lead4 (Value.ix4_0 y) = y :=
  funext fun a => Fin.ext (by
    have h0 : (y 0).val < 1 := (y 0).isLt
    match a with
    | ⟨0, _⟩ => show 0 = (y 0).val; omega
    | ⟨1, _⟩ => rfl
    | ⟨2, _⟩ => rfl
    | ⟨3, _⟩ => rfl)

theorem lead5_under (y : S1x128x8x64.Idx) (j : Fin 16) : lead5 (withNbr (Value.ix4_0 y) j) = nbrIn y j :=
  funext fun a => Fin.ext (by
    have h0 : (y 0).val < 1 := (y 0).isLt
    match a with
    | ⟨0, _⟩ => show 0 = (y 0).val; omega
    | ⟨1, _⟩ => rfl
    | ⟨2, _⟩ => rfl
    | ⟨3, _⟩ => rfl
    | ⟨4, _⟩ => rfl)

/-- WHAT THE BODY LEAVES AT `(0, n, h, d)` OF THE OUTPUT BLOCK: the softmax over the sixteen neighbours of the scores
    `(q · k_j + q · g_j) · 2⁻³` of the loaded blocks at `(0, n, j, h, d)`, against the value block's entries there.
    `P0` is the query block, `P1` the key block, `P2` the geometric block, `P3` the value block. -/
theorem block_apply (y : S1x128x8x64.Idx) :
    Value.E4 (F := Ideal) P0 P1 P2 P3 y
      = softmaxDot (fun j => (P0 y * P1 (nbrIn y j) + P0 y * P2 (nbrIn y j)) * scale) (fun j => P3 (nbrIn y j)) := by
  show weighted (blockScores P0 P1 P2 _ _ _ _) (shapeCast S128x16x8x64 P3 _) _ _ _ (Value.ix4_0 y) = _
  rw [weighted_apply]
  congr 1
  · funext j
    show blockScores P0 P1 P2 _ _ _ _ (withNbr (Value.ix4_0 y) j) = _
    rw [blockScores_apply, dropNbr_withNbr, lead4_under, lead5_under]
  · funext j
    show shapeCast S128x16x8x64 P3 _ (withNbr (Value.ix4_0 y) j) = _
    rw [dropLead5_apply, lead5_under]

end Block

end Cert.GeoAttention.Block

end
-- ==== Proof.KernelArray.lean ====
/-
  From the kernel's blocks to its result array.

  The grid has 2 × 32 points; point (b, p) stages tokens 128 p … 128 p + 127 of batch entry b of every
  operand — all heads and channels, and for the keys, values and geometric features all sixteen
  neighbours — and writes back the same tokens of the result. So an entry of a staged block is the
  entry of its array with the same batch, head, channel (and neighbour) coordinates and the token moved
  by 128 p, and what a point writes back is that block of the function `G` of the four argument arrays.
  The 64 blocks tile the result array, which therefore ends holding `G`.
-/
import proofs.«164662_j37855841747280_1_alg».proof.Proof.Gen.KernelIdeal.Value
import proofs.«164662_j37855841747280_1_alg».proof.Proof.KernelBlock
import Idealize.ShloMosaic.Lib.Pipeline.Value

noncomputable section

namespace Cert.GeoAttention.Kernel

open Cert.KernelIdeal Cert.KernelIdeal.Gen Idealize.ShloMosaic Idealize.ShloMosaic.TcCoe Idealize.SL.Sem Cert.GeoAttention
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl

/-- The index maps, decided over the 64 grid points: each five-axis block has the output block's index on batch,
    token, head and channel, and index 0 on the neighbour axis. -/
theorem idx_facts : ∀ t : Fin cfg0.N,
    (win0_1.index t (0 : Fin 5) = win0_4.index t (0 : Fin 4) ∧ win0_1.index t (1 : Fin 5) = win0_4.index t (1 : Fin 4)
      ∧ win0_1.index t (2 : Fin 5) = 0 ∧ win0_1.index t (3 : Fin 5) = win0_4.index t (2 : Fin 4)
      ∧ win0_1.index t (4 : Fin 5) = win0_4.index t (3 : Fin 4))
    ∧ (win0_2.index t (0 : Fin 5) = win0_4.index t (0 : Fin 4) ∧ win0_2.index t (1 : Fin 5) = win0_4.index t (1 : Fin 4)
      ∧ win0_2.index t (2 : Fin 5) = 0 ∧ win0_2.index t (3 : Fin 5) = win0_4.index t (2 : Fin 4)
      ∧ win0_2.index t (4 : Fin 5) = win0_4.index t (3 : Fin 4))
    ∧ (win0_3.index t (0 : Fin 5) = win0_4.index t (0 : Fin 4) ∧ win0_3.index t (1 : Fin 5) = win0_4.index t (1 : Fin 4)
      ∧ win0_3.index t (2 : Fin 5) = 0 ∧ win0_3.index t (3 : Fin 5) = win0_4.index t (2 : Fin 4)
      ∧ win0_3.index t (4 : Fin 5) = win0_4.index t (3 : Fin 4)) :=
  (by decide +kernel : ∀ t : Fin grid0.N, _)

/-- Every (batch entry, token block) is some grid point's output block. -/
theorem idx_onto : ∀ (b : Fin 2) (p : Fin 32), ∃ t : Fin cfg0.N, win0_4.index t = ![b.val, p.val, 0, 0] :=
  (by decide +kernel : ∀ (b : Fin 2) (p : Fin 32), ∃ t : Fin grid0.N, win0_4.index t = ![b.val, p.val, 0, 0])

/-- The query block at point `t`, read at the block index `y`, is the query array at the array index under `y` in the
    output block: the two windows have the same block shape and the same index map, so the same embedding. -/
theorem queryBlock_apply (c : Dev nD) (t : Fin cfg0.N) (y : S1x128x8x64.Idx) :
    (iblk m c 0 t : Vec Ideal S1x128x8x64 .f32) y
      = (V m c main_arg0 : S2x4096x8x64.Idx → EReal) (((cfg0.win 4).blk t).view.emb y) := by
  unfold iblk
  rw [View.read_apply]
  show V m c main_arg0 _ = V m c main_arg0 _
  congr 1

/-- The key block at point `t`, read at neighbour `j` of the block index `y`, is the key array at neighbour `j` of the
    array index under `y`: the block moves with the output block on batch, token, head and channel and spans all sixteen neighbours. -/
theorem keyBlock_apply (c : Dev nD) (t : Fin cfg0.N) (y : S1x128x8x64.Idx) (j : Fin 16) :
    (iblk m c 1 t : Vec Ideal S1x128x16x8x64 .f32) (Block.nbrIn y j)
      = (V m c main_arg1 : S2x4096x16x8x64.Idx → EReal) (nbr (((cfg0.win 4).blk t).view.emb y) j) := by
  obtain ⟨f1, f2, f3⟩ := idx_facts t
  obtain ⟨e0, e1, e2, e3, e4⟩ := f1
  unfold iblk
  rw [View.read_apply]
  show V m c main_arg1 _ = V m c main_arg1 _
  congr 1
  funext a
  apply Fin.ext
  match a with
  | ⟨0, _⟩ => show win0_1.index t (0 : Fin 5) * 1 + 1 * (y 0).val = win0_4.index t (0 : Fin 4) * 1 + 1 * (y 0).val; omega
  | ⟨1, _⟩ => show win0_1.index t (1 : Fin 5) * 128 + 1 * (y 1).val = win0_4.index t (1 : Fin 4) * 128 + 1 * (y 1).val; omega
  | ⟨2, _⟩ => show win0_1.index t (2 : Fin 5) * 16 + 1 * j.val = j.val; omega
  | ⟨3, _⟩ => show win0_1.index t (3 : Fin 5) * 8 + 1 * (y 2).val = win0_4.index t (2 : Fin 4) * 8 + 1 * (y 2).val; omega
  | ⟨4, _⟩ => show win0_1.index t (4 : Fin 5) * 64 + 1 * (y 3).val = win0_4.index t (3 : Fin 4) * 64 + 1 * (y 3).val; omega

/-- The value block at point `t`, read at neighbour `j` of the block index `y`, is the value array at neighbour `j` of the
    array index under `y`: the block moves with the output block on batch, token, head and channel and spans all sixteen neighbours. -/
theorem valueBlock_apply (c : Dev nD) (t : Fin cfg0.N) (y : S1x128x8x64.Idx) (j : Fin 16) :
    (iblk m c 2 t : Vec Ideal S1x128x16x8x64 .f32) (Block.nbrIn y j)
      = (V m c main_arg2 : S2x4096x16x8x64.Idx → EReal) (nbr (((cfg0.win 4).blk t).view.emb y) j) := by
  obtain ⟨f1, f2, f3⟩ := idx_facts t
  obtain ⟨e0, e1, e2, e3, e4⟩ := f2
  unfold iblk
  rw [View.read_apply]
  show V m c main_arg2 _ = V m c main_arg2 _
  congr 1
  funext a
  apply Fin.ext
  match a with
  | ⟨0, _⟩ => show win0_2.index t (0 : Fin 5) * 1 + 1 * (y 0).val = win0_4.index t (0 : Fin 4) * 1 + 1 * (y 0).val; omega
  | ⟨1, _⟩ => show win0_2.index t (1 : Fin 5) * 128 + 1 * (y 1).val = win0_4.index t (1 : Fin 4) * 128 + 1 * (y 1).val; omega
  | ⟨2, _⟩ => show win0_2.index t (2 : Fin 5) * 16 + 1 * j.val = j.val; omega
  | ⟨3, _⟩ => show win0_2.index t (3 : Fin 5) * 8 + 1 * (y 2).val = win0_4.index t (2 : Fin 4) * 8 + 1 * (y 2).val; omega
  | ⟨4, _⟩ => show win0_2.index t (4 : Fin 5) * 64 + 1 * (y 3).val = win0_4.index t (3 : Fin 4) * 64 + 1 * (y 3).val; omega

/-- The geometric-feature block at point `t`, read at neighbour `j` of the block index `y`, is the geometric-feature array at neighbour `j` of the
    array index under `y`: the block moves with the output block on batch, token, head and channel and spans all sixteen neighbours. -/
theorem geoBlock_apply (c : Dev nD) (t : Fin cfg0.N) (y : S1x128x8x64.Idx) (j : Fin 16) :
    (iblk m c 3 t : Vec Ideal S1x128x16x8x64 .f32) (Block.nbrIn y j)
      = (V m c main_arg3 : S2x4096x16x8x64.Idx → EReal) (nbr (((cfg0.win 4).blk t).view.emb y) j) := by
  obtain ⟨f1, f2, f3⟩ := idx_facts t
  obtain ⟨e0, e1, e2, e3, e4⟩ := f3
  unfold iblk
  rw [View.read_apply]
  show V m c main_arg3 _ = V m c main_arg3 _
  congr 1
  funext a
  apply Fin.ext
  match a with
  | ⟨0, _⟩ => show win0_3.index t (0 : Fin 5) * 1 + 1 * (y 0).val = win0_4.index t (0 : Fin 4) * 1 + 1 * (y 0).val; omega
  | ⟨1, _⟩ => show win0_3.index t (1 : Fin 5) * 128 + 1 * (y 1).val = win0_4.index t (1 : Fin 4) * 128 + 1 * (y 1).val; omega
  | ⟨2, _⟩ => show win0_3.index t (2 : Fin 5) * 16 + 1 * j.val = j.val; omega
  | ⟨3, _⟩ => show win0_3.index t (3 : Fin 5) * 8 + 1 * (y 2).val = win0_4.index t (2 : Fin 4) * 8 + 1 * (y 2).val; omega
  | ⟨4, _⟩ => show win0_3.index t (4 : Fin 5) * 64 + 1 * (y 3).val = win0_4.index t (3 : Fin 4) * 64 + 1 * (y 3).val; omega

/-- WHAT POINT `t` WRITES BACK is block `t` of `G` of the four argument arrays as the region finds them. -/
theorem flushed_eq (c : Dev nD) (t : Fin cfg0.N) :
    (dats m 0 c).flushed 4 t
      = ((cfg0.win 4).blk t).view.read (Elt Ideal) (G (V m c main_arg0) (V m c main_arg1) (V m c main_arg2) (V m c main_arg3)) := by
  rw [Value.flushed4]
  unfold out0_4
  simp only [View.ld_unit_zero (S := S1x128x8x64) zero4, View.ld_unit_zero (S := S1x128x16x8x64) zero5]
  funext y
  show View.canon ([⟨r0_0, k0_pay1 (iblk m c 0 t) (iblk m c 1 t) (iblk m c 3 t) (iblk m c 2 t)⟩] : List (View.Piece (Elt Ideal) S1x128x8x64 .f32)) y
    = G (V m c main_arg0) (V m c main_arg1) (V m c main_arg2) (V m c main_arg3) (((cfg0.win 4).blk t).view.emb y)
  refine (Value.canon4_eq (iblk m c 0 t) (iblk m c 1 t) (iblk m c 3 t) (iblk m c 2 t) y).trans ?_
  refine (Block.block_apply (iblk m c 0 t) (iblk m c 1 t) (iblk m c 3 t) (iblk m c 2 t) y).trans ?_
  show softmaxDot _ _ = softmaxDot (score (V m c main_arg0) (V m c main_arg1) (V m c main_arg3) (((cfg0.win 4).blk t).view.emb y))
    (fun j => V m c main_arg2 (nbr (((cfg0.win 4).blk t).view.emb y) j))
  congr 1
  · funext j
    unfold score
    rw [queryBlock_apply m c t y, keyBlock_apply m c t y j, geoBlock_apply m c t y j]
  · funext j
    exact valueBlock_apply m c t y j

/-- An index of the result array is in point `t`'s block iff each coordinate is in the block's range on its axis. -/
theorem mem_blk (t : Fin cfg0.N) (i : S2x4096x8x64.Idx) :
    i ∈ ((cfg0.win 4).blk t).view.set ↔ ∀ a : Fin 4, win0_4.index t a * S1x128x8x64.size a ≤ (i a).val
      ∧ (i a).val < win0_4.index t a * S1x128x8x64.size a + S1x128x8x64.size a := by
  show i ∈ ((View.whole main_v0).slice (win0_4.rect t)).set ↔ _
  rw [View.set_slice_whole, Rect.mem_set_unit]
  exact Iff.rfl

/-- Every index of the result array is in some point's block: batch entry `b`, token `n` is in the block of the point
    with block index `(b, n / 128)`, and every point writes back. -/
theorem covered (i : S2x4096x8x64.Idx) :
    ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 8 := (i 2).isLt
  have hi3 : (i 3).val < 64 := (i 3).isLt
  obtain ⟨t, ht⟩ := idx_onto ⟨(i 0).val, hi0⟩ ⟨(i 1).val / 128, by omega⟩
  have q0 : win0_4.index t (0 : Fin 4) = (i 0).val := congrFun ht 0
  have q1 : win0_4.index t (1 : Fin 4) = (i 1).val / 128 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 8 ≤ (i 2).val ∧ (i 2).val < win0_4.index t (2 : Fin 4) * 8 + 8; omega
  | ⟨3, _⟩ => show win0_4.index t (3 : Fin 4) * 64 ≤ (i 3).val ∧ (i 3).val < win0_4.index t (3 : Fin 4) * 64 + 64; omega

/-- THE RESULT ARRAY after the run is `G` of the argument arrays. -/
theorem final (c : Dev nD) :
    (dats m 0 c).arrAt 4 cfg0.N = G (V m c main_arg0) (V m c main_arg1) (V m c main_arg2) (V m c main_arg3) :=
  (dats m 0 c).arrAt_eq_of_cover 4 _ (fun t _ => flushed_eq m c t) covered

/-- The kernel's run: every weakly fair execution ends with the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.GeoAttention.Kernel

end
-- ==== Proof.lean ====
/-
  Neighbourhood attention with a per-channel score: the kernel and its reference compute one function.

  For a query q[b, n, h, d] and its sixteen neighbours' keys k, values v and geometric features g
  (each [b, n, j, h, d]) both programs form the scores s_j = (q · k_j + q · g_j) · 2⁻³ channel by channel,
  the softmax weights w_j = exp (s_j − max_j s_j) / Σ_j exp (s_j − max_j s_j) over the neighbours, and the
  result Σ_j w_j · v_j. The kernel does this on blocks of 128 tokens of one batch entry, over a 2 × 32
  grid whose output blocks tile the result; the reference does it on the whole arrays. Read on the
  extended reals the two agree operation by operation: the constants are the same words, exp and the
  quotient are the same functions on both sides, each reduction runs over the neighbour axis alone, and
  the reference's extra `max` with −∞ after its maximum is the identity. No step needs the inputs finite,
  so the precondition is never opened. The idealized kernel is the kernel's own text (no rewrite was
  applied), so there is nothing to preserve.
-/
import proofs.«164662_j37855841747280_1_alg».proof.Defs
import proofs.«164662_j37855841747280_1_alg».proof.Proof.Gen.Kernel
import proofs.«164662_j37855841747280_1_alg».proof.Proof.Gen.Kernel.Skeleton
import proofs.«164662_j37855841747280_1_alg».proof.Proof.Gen.Kernel.Launch
import proofs.«164662_j37855841747280_1_alg».proof.Proof.Gen.Kernel.Points
import proofs.«164662_j37855841747280_1_alg».proof.Proof.Gen.Kernel.Frame
import proofs.«164662_j37855841747280_1_alg».proof.Proof.Gen.KernelIdeal
import proofs.«164662_j37855841747280_1_alg».proof.Proof.Gen.KernelIdeal.Skeleton
import proofs.«164662_j37855841747280_1_alg».proof.Proof.Gen.KernelIdeal.Launch
import proofs.«164662_j37855841747280_1_alg».proof.Proof.Gen.KernelIdeal.Points
import proofs.«164662_j37855841747280_1_alg».proof.Proof.Gen.KernelIdeal.Frame
import proofs.«164662_j37855841747280_1_alg».proof.Proof.Gen.ReferenceIdeal
import proofs.«164662_j37855841747280_1_alg».proof.Proof.Gen.Pre_finite_inputs
import proofs.«164662_j37855841747280_1_alg».proof.Proof.Gen.KernelIdeal.Value
import proofs.«164662_j37855841747280_1_alg».proof.Proof.Gen.ReferenceIdeal.Run
import proofs.«164662_j37855841747280_1_alg».proof.Proof.Gen.ReferenceIdeal.Read
import proofs.«164662_j37855841747280_1_alg».proof.Proof.NeighbourSoftmax
import proofs.«164662_j37855841747280_1_alg».proof.Proof.ReferenceStages
import proofs.«164662_j37855841747280_1_alg».proof.Proof.KernelBlock
import proofs.«164662_j37855841747280_1_alg».proof.Proof.KernelArray
import Idealize.ShloMosaic.Adequacy
import Idealize.ShloMosaic.Init

noncomputable section

namespace Cert.Proof

open Idealize.ShloMosaic Idealize.SL.Sem Cert.GeoAttention

/-- The kernel as printed runs to the end without a fault and leaves its four arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at `G` of its arguments (block by block, the blocks tiling it); the reference's
    ends at its stages' composed term, which read stage by stage is `G` of its arguments; the arguments agree. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.GeoAttention.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v20_eq _ _ _ _).trans (Cert.GeoAttention.Reference.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
